-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x8192 : Shape := ⟨2, ![512, 8192]⟩
abbrev S32x8192 : Shape := ⟨2, ![32, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S8192x4096 .f32) (main_arg1 : IVec S512x8192 32) (main_arg2 : FVec F S32x8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x8192 .f32 := Host.absf main_arg2
  let main_cst_0 : FVec F S_ .f32 := constant S_ .f32 0x7F800000#32
  let main_v5 : FVec F S32x8192 .f32 := broadcastInDim S32x8192 ![] bcast_S_S32x8192 main_cst_0
  let main_v6 : IVec S32x8192 1 := cmpf .olt main_v4 main_v5
  let main_c_1 : IVec S_ 1 := constantI S_ 1 1#1
  let main_v7 : IVec S_ 1 := (fun x v => Host.reduce IntOp.andi x v reducesTo_S32x8192_S_d0_1 h_S_) main_v6 main_c_1
  let main_v8 : IVec S_ 1 := andi main_v3 main_v7
  main_v8
-- ==== Kernel.lean ====
abbrev S8192x4096 : Shape := ⟨2, ![8192, 4096]⟩
abbrev S512x8192 : Shape := ⟨2, ![512, 8192]⟩
abbrev S32x8192 : Shape := ⟨2, ![32, 8192]⟩
abbrev S8192x8192 : Shape := ⟨2, ![8192, 8192]⟩
abbrev S1024x1024 : Shape := ⟨2, ![1024, 1024]⟩
abbrev S128x1024 : Shape := ⟨2, ![128, 1024]⟩
abbrev S8x1024 : Shape := ⟨2, ![8, 1024]⟩
abbrev S1x8 : Shape := ⟨2, ![1, 8]⟩
abbrev S8 : Shape := ⟨1, ![8]⟩
abbrev S1x8x1 : Shape := ⟨3, ![1, 8, 1]⟩
abbrev S128x1x1024 : Shape := ⟨3, ![128, 1, 1024]⟩
abbrev S128x8x1024 : Shape := ⟨3, ![128, 8, 1024]⟩
abbrev S8x128x1024 : Shape := ⟨3, ![8, 128, 1024]⟩
abbrev S8x1x1024 : Shape := ⟨3, ![8, 1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S512x8192, .i32⟩
  | .hbm, ⟨2, _⟩ => ⟨S32x8192, .f32⟩
  | .hbm, ⟨3, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  inb_S128x1024_S128x1024_0_0 : ∀ a, (![0, 0] : Fin 2 → Nat) a + S128x1024.size a ≤ S128x1024.size a
  h_S128x1024 : 0 < S128x1024.numel
  iota_S1x8_d1_w32 : S1x8.Iotas .tc 32 [1]
  shapeCasts_S1x8_S8 : S1x8.ShapeCasts S8
  shapeCasts_S8_S1x8x1 : S8.ShapeCasts S1x8x1
  shapeCasts_S128x1024_S128x1x1024 : S128x1024.ShapeCasts S128x1x1024
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x8192.size a
  hwx0_1 : ∀ i : grid0.Coords, EltTy.bits .i32 = 32 ∨ (Rect.block (s := S512x8192) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x8192.size a
  hwx0_2 : ∀ i : grid0.Coords, EltTy.bits .f32 = 32 ∨ (Rect.block (s := S32x8192) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S512x8192 : Shape := ⟨2, ![512, 8192]⟩
abbrev S32x8192 : Shape := ⟨2, ![32, 8192]⟩
abbrev S8 : Shape := ⟨1, ![8]⟩
abbrev S_ : Shape := ⟨0, ![]⟩
abbrev S512x1x8192 : Shape := ⟨3, ![512, 1, 8192]⟩
abbrev S1x8x1 : Shape := ⟨3, ![1, 8, 1]⟩
abbrev S512x8x8192 : Shape := ⟨3, ![512, 8, 8192]⟩
abbrev S4096x8192 : Shape := ⟨2, ![4096, 8192]⟩
abbrev S32x128x8192 : Shape := ⟨3, ![32, 128, 8192]⟩
abbrev S32x1x8192 : Shape := ⟨3, ![32, 1, 8192]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x8192, .i32⟩
  | .hbm, ⟨2, _⟩ => ⟨S32x8192, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S512x1x8192, .i32⟩
  | .hbm, ⟨8, _⟩ => ⟨S1x8x1, .i32⟩
  | .hbm, ⟨9, _⟩ => ⟨S512x8x8192, .i32⟩
  | .hbm, ⟨10, _⟩ => ⟨S512x8x8192, .i32⟩
  | .hbm, ⟨11, _⟩ => ⟨S512x8x8192, .i32⟩
  | .hbm, ⟨12, _⟩ => ⟨S_, .i32⟩
  | .hbm, ⟨13, _⟩ => ⟨S512x8x8192, .i32⟩
  | .hbm, ⟨14, _⟩ => ⟨S512x8x8192, .i32⟩
  | .hbm, ⟨15, _⟩ => ⟨S4096x8192, .i32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S32x128x8192, .f32⟩
  | .hbm, ⟨21, _⟩ => ⟨S32x1x8192, .f32⟩
  | .hbm, ⟨22, _⟩ => ⟨S32x128x8192, .f32⟩
  | .hbm, ⟨23, _⟩ => ⟨S32x128x8192, .f32⟩
  | .hbm, ⟨24, _⟩ => ⟨S4096x8192, .f32⟩
  | .hbm, ⟨25, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x8192_S512x1x8192_0_2 : S512x8192.BroadcastsInDim S512x1x8192 (![0, 2] : Fin 2 → Fin S512x1x8192.rank)
  bcast_S8_S1x8x1_1 : S8.BroadcastsInDim S1x8x1 (![1] : Fin 1 → Fin S1x8x1.rank)
  bcast_S512x1x8192_S512x8x8192_0_1_2 : S512x1x8192.BroadcastsInDim S512x8x8192 (![0, 1, 2] : Fin 3 → Fin S512x8x8192.rank)
  bcast_S1x8x1_S512x8x8192_0_1_2 : S1x8x1.BroadcastsInDim S512x8x8192 (![0, 1, 2] : Fin 3 → Fin S512x8x8192.rank)
  bcast_S_S512x8x8192 : S_.BroadcastsInDim S512x8x8192 (![] : Fin 0 → Fin S512x8x8192.rank)
  shapeCasts_S512x8x8192_S4096x8192 : S512x8x8192.ShapeCasts S4096x8192
  bcast_S_S4096x8192 : S_.BroadcastsInDim S4096x8192 (![] : Fin 0 → Fin S4096x8192.rank)
  shapeCasts_S4096x8192_S32x128x8192 : S4096x8192.ShapeCasts S32x128x8192
  bcast_S32x8192_S32x1x8192_0_2 : S32x8192.BroadcastsInDim S32x1x8192 (![0, 2] : Fin 2 → Fin S32x1x8192.rank)
  bcast_S32x1x8192_S32x128x8192_0_1_2 : S32x1x8192.BroadcastsInDim S32x128x8192 (![0, 1, 2] : Fin 3 → Fin S32x128x8192.rank)
  shapeCasts_S32x128x8192_S4096x8192 : S32x128x8192.ShapeCasts S4096x8192
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.Spec.lean ====
/-
  The int4 grouped-quantized matrix product, as one function of the three argument arrays.

  A packed word holds eight 4-bit fields; field `p` of word `b` is `(b >>ₛ 4p) & 15`, an integer in 0 … 15. Row `k` of
  the 4096 × 8192 weight matrix takes field `k mod 8` of word `(k / 8, j)`, subtracts the zero point 8, and scales by the
  scale of the row's group of 128, `s (k / 128, j)`. The result is `C (i, j) = ∑ k < 4096, A (i, k) · W (k, j)`.

  The same scalar function `deq` is read at a 1024 × 1024 tile of the weights (`tileSum`), and the whole sum is the four
  tiles' sums added up (`sum_four_tiles`): addition on the extended reals is commutative and associative, so the
  regrouping needs nothing of the entries.
-/
import Idealize.ShloMosaic.PureOps.Ideal
import Idealize.ShloMosaic.Lib.ValueIdx
import proofs.«406609_j25400436588628_1_alg».proof.Proof.LibTile

noncomputable section

namespace Cert.QMatmul

open Idealize.ShloMosaic Idealize.ShloMosaic.ValueIdx

/-- One dequantized weight: field `p` of the packed word `b` as an integer, minus the zero point 8 (the word
    `0x41000000`), times the scale `sc`. -/
def deq (b : BitVec 32) (p : ℕ) (sc : EReal) : EReal :=
  (FloatOps.sitofp (F := Ideal) .f32 (IntOp.andi (IntOp.shrsi .host b (IntOp.muli (BitVec.ofNat 32 p) 4#32)) 15#32)
    - Ideal.ofBits .f32 0x41000000#32) * sc

/-- Entry `(i, j)` of the product: the sum over all 4096 rows `k` of the weights of `A (i, k)` times the dequantized
    weight `(k, j)`. -/
def G (A : FVec Ideal ⟨2, ![8192, 4096]⟩ .f32) (B : IVec ⟨2, ![512, 8192]⟩ 32) (s : FVec Ideal ⟨2, ![32, 8192]⟩ .f32) :
    FVec Ideal ⟨2, ![8192, 8192]⟩ .f32 := fun i =>
  ∑ k : Fin 4096, A (ix2 (⟨(i 0).val, (i 0).isLt⟩ : Fin 8192) k)
    * deq (B (ix2 (⟨k.val / 8, by have := k.isLt; omega⟩ : Fin 512) (⟨(i 1).val, (i 1).isLt⟩ : Fin 8192))) (k.val % 8)
        (s (ix2 (⟨k.val / 128, by have := k.isLt; omega⟩ : Fin 32) (⟨(i 1).val, (i 1).isLt⟩ : Fin 8192)))

/-- The same sum over one 1024 × 1024 tile: `x0` a tile of `A`, `x1` the 128 packed rows and `x2` the 8 scale rows that
    hold the tile's 1024 weight rows. -/
def tileSum (x0 : FVec Ideal ⟨2, ![1024, 1024]⟩ .f32) (x1 : IVec ⟨2, ![128, 1024]⟩ 32) (x2 : FVec Ideal ⟨2, ![8, 1024]⟩ .f32)
    (p q : Fin 1024) : EReal :=
  ∑ k : Fin 1024, x0 (ix2 p k)
    * deq (x1 (ix2 (⟨k.val / 8, by have := k.isLt; omega⟩ : Fin 128) q)) (k.val % 8)
        (x2 (ix2 (⟨k.val / 128, by have := k.isLt; omega⟩ : Fin 8) q))

/-- A sum over 4096 indices is the sum over four consecutive tiles of 1024. -/
theorem sum_four_tiles (f : ℕ → EReal) :
    ∑ t ∈ Finset.range 4, ∑ k : Fin 1024, f (1024 * t + k.val) = ∑ k : Fin 4096, f k.val := by
  rw [Finset.sum_range fun t => ∑ k : Fin 1024, f (1024 * t + k.val)]
  exact Cert.Hand.LibTile.sum_tiles (m := 4) (n := 1024) rfl fun r : Fin 4096 => f r.val

end Cert.QMatmul

end
-- ==== Proof.RefSpec.lean ====
/-
  The reference computes `G`.

  Its weight matrix is built by layout steps around pointwise ones: the packed words are repeated along a new axis of
  length 8 and shifted by `4 p` there, masked, and the [512, 8, 8192] result is re-read as [4096, 8192], so row `k` is field
  `k mod 8` of packed row `k / 8`; after the subtraction the rows are grouped as [32, 128, 8192], scaled by the group's
  scale, and re-read as [4096, 8192], so row `k` meets the scale of group `k / 128`. Read at index `(k, j)` these steps give
  `deq` of word `(k / 8, j)`, field `k mod 8`, scale `(k / 128, j)` (`weight_apply`); the host's product is then the sum over
  `k` that defines `G` (`ref_eq`).
-/
import proofs.«406609_j25400436588628_1_alg».proof.Proof.Gen.ReferenceIdeal.Read
import proofs.«406609_j25400436588628_1_alg».proof.Proof.Spec

noncomputable section

namespace Cert.QMatmul.Ref

open Cert.ReferenceIdeal Cert.ReferenceIdeal.Gen Cert.ReferenceIdeal.Read Idealize.ShloMosaic Idealize.ShloMosaic.ValueIdx

/-- Row `k` of the [4096, 8192] reading of a [512, 8, 8192] array is place `k mod 8` of row `k / 8`. -/
theorem unpack_idx (k : Fin 4096) (j : Fin 8192) :
    idx_main_v10 (ix2 k j) = ix3 (⟨k.val / 8, by have := k.isLt; omega⟩ : Fin 512) (⟨k.val % 8, by omega⟩ : Fin 8) j := by
  have hk := k.isLt; have hj := j.isLt
  funext a
  match a with
  | ⟨0, _⟩ => exact Fin.ext (show (k.val * 8192 + j.val) / 65536 = k.val / 8 by omega)
  | ⟨1, _⟩ => exact Fin.ext (show (k.val * 8192 + j.val) / 8192 % 8 = k.val % 8 by omega)
  | ⟨2, _⟩ => exact Fin.ext (show (k.val * 8192 + j.val) % 8192 = j.val by omega)

/-- Row `k` of the [4096, 8192] reading of a [32, 128, 8192] array is place `k mod 128` of group `k / 128`. -/
theorem group_idx (k : Fin 4096) (j : Fin 8192) :
    idx_main_v18 (ix2 k j) = ix3 (⟨k.val / 128, by have := k.isLt; omega⟩ : Fin 32) (⟨k.val % 128, by omega⟩ : Fin 128) j := by
  have hk := k.isLt; have hj := j.isLt
  funext a
  match a with
  | ⟨0, _⟩ => exact Fin.ext (show (k.val * 8192 + j.val) / 1048576 = k.val / 128 by omega)
  | ⟨1, _⟩ => exact Fin.ext (show (k.val * 8192 + j.val) / 8192 % 128 = k.val % 128 by omega)
  | ⟨2, _⟩ => exact Fin.ext (show (k.val * 8192 + j.val) % 8192 = j.val by omega)

/-- Grouping the rows by 128 and reading the groups back as rows returns to row `k`. -/
theorem regroup_idx (k : Fin 4096) (j : Fin 8192) :
    idx_main_v14 (ix3 (⟨k.val / 128, by have := k.isLt; omega⟩ : Fin 32) (⟨k.val % 128, by omega⟩ : Fin 128) j) = ix2 k j := by
  have hk := k.isLt; have hj := j.isLt
  funext a
  match a with
  | ⟨0, _⟩ => exact Fin.ext (show ((k.val / 128 * 128 + k.val % 128) * 8192 + j.val) / 8192 = k.val by omega)
  | ⟨1, _⟩ => exact Fin.ext (show ((k.val / 128 * 128 + k.val % 128) * 8192 + j.val) % 8192 = j.val by omega)

/-- Repeating the packed words along the new axis of length 8 does not move them: place `(r, p, j)` reads word `(r, j)`. -/
theorem word_idx (r : Fin 512) (p : Fin 8) (j : Fin 8192) : idx_main_v3 (idx_main_v5 (ix3 r p j)) = ix2 r j :=
  funext fun a => by match a with | ⟨0, _⟩ => rfl | ⟨1, _⟩ => rfl

/-- Repeating the scales along a group's 128 rows does not move them: place `(g, l, j)` reads scale `(g, j)`. -/
theorem scale_idx (g : Fin 32) (l : Fin 128) (j : Fin 8192) : idx_main_v15 (idx_main_v16 (ix3 g l j)) = ix2 g j :=
  funext fun a => by match a with | ⟨0, _⟩ => rfl | ⟨1, _⟩ => rfl

/-- The reference's weight matrix at `(k, j)`. -/
theorem weight_apply (x1 : (⟨S512x8192, .i32⟩ : BufTy).Contents (Elt Ideal)) (x2 : (⟨S32x8192, .f32⟩ : BufTy).Contents (Elt Ideal))
    (k : Fin 4096) (j : Fin 8192) :
    val_main_v18 (F := Ideal) x1 x2 (ix2 k j)
      = deq (x1 (ix2 (⟨k.val / 8, by have := k.isLt; omega⟩ : Fin 512) j)) (k.val % 8)
          (x2 (ix2 (⟨k.val / 128, by have := k.isLt; omega⟩ : Fin 32) j)) := by
  rw [val_main_v18_apply, group_idx, val_main_v17_apply, val_main_v14_apply, regroup_idx, val_main_v13_apply,
    val_main_v11_apply, val_main_v10_apply, unpack_idx, val_main_v9_apply, val_main_v7_apply, val_main_v5_apply,
    val_main_v3_apply, val_main_v6_apply, val_main_v4_apply, val_main_v2_apply, val_main_v0_apply, val_main_v1_apply,
    val_main_c_apply, val_main_v8_apply, val_main_c_0_apply, val_main_v12_apply, val_main_cst_apply,
    val_main_v16_apply, val_main_v15_apply, word_idx, scale_idx]
  rfl

/-- The reference's result is `G` of its arguments. -/
theorem ref_eq (x0 : (⟨S8192x4096, .f32⟩ : BufTy).Contents (Elt Ideal)) (x1 : (⟨S512x8192, .i32⟩ : BufTy).Contents (Elt Ideal))
    (x2 : (⟨S32x8192, .f32⟩ : BufTy).Contents (Elt Ideal)) :
    val_main_v19 (F := Ideal) x0 x1 x2 = G x0 x1 x2 := by
  funext i
  rw [val_main_v19_apply]
  unfold G
  refine Finset.sum_congr rfl fun k _ => ?_
  have hl : lidx_main_v19 i k = ix2 (⟨(i 0).val, (i 0).isLt⟩ : Fin 8192) k :=
    funext fun a => by match a with | ⟨0, _⟩ => rfl | ⟨1, _⟩ => rfl
  have hr : ridx_main_v19 i k = ix2 k (⟨(i 1).val, (i 1).isLt⟩ : Fin 8192) :=
    funext fun a => by match a with | ⟨0, _⟩ => rfl | ⟨1, _⟩ => rfl
  rw [hl, hr, weight_apply]

end Cert.QMatmul.Ref

end
-- ==== Proof.Payload.lean ====
/-
  One grid point's arithmetic, read at an index.

  The body unpacks its 128 × 1024 tile of packed words into 1024 weight rows: the words are repeated along a new axis of
  length 8, place `p` shifted right by `4 p` and masked to four bits, and the [128, 8, 1024] result is re-read as
  [1024, 1024], so weight row `k` is field `k mod 8` of word row `k / 8`. After subtracting 8 the rows are grouped as
  [8, 128, 1024], scaled by the group's row of the 8 × 1024 tile of scales, and re-read as [1024, 1024], so row `k` meets the
  scale of group `k / 128`. The tile of `A` is multiplied into this and added to what the output tile held:
  at `(p, q)` the new content is the old one plus `∑ k < 1024, A_tile (p, k) · deq (word (k / 8, q)) (k mod 8) (scale (k / 128, q))`,
  the specification's `tileSum`. Narrowing a value's float format is the identity on the extended reals, and at 32
  bits an arithmetic right shift is the same function on the vector unit and on the host.
-/
import proofs.«406609_j25400436588628_1_alg».proof.Proof.Gen.KernelIdeal.Skeleton
import proofs.«406609_j25400436588628_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.QMatmul.Tile

open Cert.KernelIdeal Cert.KernelIdeal.Gen Idealize.ShloMosaic Idealize.ShloMosaic.ValueIdx

variable {α : Type}

/-- At 32 bits an arithmetic right shift is the same function on the vector unit and on the host: below 32 both
    are the shift, and from 32 on both give the word of sign bits. -/
theorem shrsi_vector_eq_host (x y : BitVec 32) : IntOp.shrsi .vector x y = IntOp.shrsi .host x y := by
  simp [IntOp.shrsi, IntOp.cornerWord]

/-! ## The layout steps at an index -/

/-- [8, 128, 1024] re-read as [1024, 1024]: row `k` is place `k mod 128` of group `k / 128`. -/
theorem ungroup_apply (Z : S8x128x1024.Idx → α) (h : S8x128x1024.ShapeCasts S1024x1024) (k q : Fin 1024) :
    shapeCast S1024x1024 Z h (ix2 k q)
      = Z (ix3 (⟨k.val / 128, by have := k.isLt; omega⟩ : Fin 8) (⟨k.val % 128, by omega⟩ : Fin 128) q) :=
  shapeCast_apply Z h _ _ (by
    rewrite [Shape.rowMajor_val_three, Shape.rowMajor_val_two]
    show (k.val / 128 * 128 + k.val % 128) * 1024 + q.val = k.val * 1024 + q.val
    omega)

/-- [1024, 1024] re-read as [8, 128, 1024]: place `k mod 128` of group `k / 128` is row `k`. -/
theorem regroup_apply (Y : S1024x1024.Idx → α) (h : S1024x1024.ShapeCasts S8x128x1024) (k q : Fin 1024) :
    shapeCast S8x128x1024 Y h (ix3 (⟨k.val / 128, by have := k.isLt; omega⟩ : Fin 8) (⟨k.val % 128, by omega⟩ : Fin 128) q)
      = Y (ix2 k q) :=
  shapeCast_apply Y h _ _ (by
    rewrite [Shape.rowMajor_val_two, Shape.rowMajor_val_three]
    show k.val * 1024 + q.val = (k.val / 128 * 128 + k.val % 128) * 1024 + q.val
    omega)

/-- [128, 8, 1024] re-read as [1024, 1024]: row `k` is place `k mod 8` of word row `k / 8`. -/
theorem unpack_apply (X : S128x8x1024.Idx → α) (h : S128x8x1024.ShapeCasts S1024x1024) (k q : Fin 1024) :
    shapeCast S1024x1024 X h (ix2 k q)
      = X (ix3 (⟨k.val / 8, by have := k.isLt; omega⟩ : Fin 128) (⟨k.val % 8, by omega⟩ : Fin 8) q) :=
  shapeCast_apply X h _ _ (by
    rewrite [Shape.rowMajor_val_three, Shape.rowMajor_val_two]
    show (k.val / 8 * 8 + k.val % 8) * 1024 + q.val = k.val * 1024 + q.val
    omega)

/-- The scales, given a unit middle axis and repeated along a group's 128 rows: place `(g, l, q)` reads scale `(g, q)`. -/
theorem scale_apply (v : S8x1024.Idx → α) (h1 : S8x1024.ShapeCasts S8x1x1024) (h2 : S8x1x1024.Broadcasts S8x128x1024)
    (g : Fin 8) (l : Fin 128) (q : Fin 1024) :
    broadcastTo S8x128x1024 (shapeCast S8x1x1024 v h1) h2 (ix3 g l q) = v (ix2 g q) := by
  refine (broadcastTo_apply _ h2 (ix3 g l q) (ix3 g (0 : Fin 1) q) (fun a => ?_)).trans
    (shapeCast_apply v h1 _ _ (by
      rewrite [Shape.rowMajor_val_two, Shape.rowMajor_val_three]
      show g.val * 1024 + q.val = (g.val * 1 + 0) * 1024 + q.val
      omega))
  match a with
  | ⟨0, _⟩ => show g.val = if (8 : Nat) = 1 then 0 else g.val; rw [if_neg (by decide)]
  | ⟨1, _⟩ => show 0 = if (1 : Nat) = 1 then 0 else l.val; rw [if_pos rfl]
  | ⟨2, _⟩ => show q.val = if (1024 : Nat) = 1 then 0 else q.val; rw [if_neg (by decide)]

/-- The packed words, given a unit middle axis and repeated along the 8 fields: place `(r, p, q)` reads word `(r, q)`. -/
theorem word_apply (v : S128x1024.Idx → α) (h1 : S128x1024.ShapeCasts S128x1x1024) (h2 : S128x1x1024.Broadcasts S128x8x1024)
    (r : Fin 128) (p : Fin 8) (q : Fin 1024) :
    broadcastTo S128x8x1024 (shapeCast S128x1x1024 v h1) h2 (ix3 r p q) = v (ix2 r q) := by
  refine (broadcastTo_apply _ h2 (ix3 r p q) (ix3 r (0 : Fin 1) q) (fun a => ?_)).trans
    (shapeCast_apply v h1 _ _ (by
      rewrite [Shape.rowMajor_val_two, Shape.rowMajor_val_three]
      show r.val * 1024 + q.val = (r.val * 1 + 0) * 1024 + q.val
      omega))
  match a with
  | ⟨0, _⟩ => show r.val = if (128 : Nat) = 1 then 0 else r.val; rw [if_neg (by decide)]
  | ⟨1, _⟩ => show 0 = if (1 : Nat) = 1 then 0 else p.val; rw [if_pos rfl]
  | ⟨2, _⟩ => show q.val = if (1024 : Nat) = 1 then 0 else q.val; rw [if_neg (by decide)]

/-- The shift amounts: `4 p` at place `(r, p, q)`, the counter 0 … 7 along the middle axis times 4. -/
theorem amount_apply (h0 : S1x8.Iotas .tc 32 [1]) (h1 : S1x8.ShapeCasts S8) (h2 : S8.ShapeCasts S1x8x1)
    (h3 : S1x8x1.Broadcasts S128x8x1024) (r : Fin 128) (p : Fin 8) (q : Fin 1024) :
    broadcastTo S128x8x1024 (shapeCast S1x8x1 (muli (shapeCast S8 (iota .tc S1x8 32 [1] h0) h1) (broadcast S8 4#32)) h2) h3 (ix3 r p q)
      = IntOp.muli (BitVec.ofNat 32 p.val) 4#32 := by
  refine (broadcastTo_apply _ h3 (ix3 r p q) (ix3 (0 : Fin 1) p (0 : Fin 1)) (fun a => ?_)).trans ?_
  · match a with
    | ⟨0, _⟩ => show 0 = if (1 : Nat) = 1 then 0 else r.val; rw [if_pos rfl]
    | ⟨1, _⟩ => show p.val = if (8 : Nat) = 1 then 0 else p.val; rw [if_neg (by decide)]
    | ⟨2, _⟩ => show 0 = if (1 : Nat) = 1 then 0 else q.val; rw [if_pos rfl]
  · refine (shapeCast_apply _ h2 _ (ix1 p) (by
      rewrite [Shape.rowMajor_val_one, Shape.rowMajor_val_three]
      show p.val = (0 * 8 + p.val) * 1 + 0
      omega)).trans ?_
    show IntOp.muli (shapeCast S8 (iota .tc S1x8 32 [1] h0) h1 (ix1 p)) 4#32 = _
    rw [shapeCast_1a_a_apply, iota_single_apply]

/-! ## The tile product at an index -/

theorem lhs_tile_0 (i : S1024x1024.Idx) (κ : dot_S1024x1024_S1024x1024_S1024x1024_1_0_0_1_n_n.contr.Idx) :
    (dot_S1024x1024_S1024x1024_S1024x1024_1_0_0_1_n_n.lhsIdx i κ 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tile_1 (i : S1024x1024.Idx) (κ : dot_S1024x1024_S1024x1024_S1024x1024_1_0_0_1_n_n.contr.Idx) :
    (dot_S1024x1024_S1024x1024_S1024x1024_1_0_0_1_n_n.lhsIdx i κ 1).val = (κ ⟨0, by decide⟩).val :=
  dot_S1024x1024_S1024x1024_S1024x1024_1_0_0_1_n_n.lhsIdx_val_of_single rfl i κ
theorem rhs_tile_0 (i : S1024x1024.Idx) (κ : dot_S1024x1024_S1024x1024_S1024x1024_1_0_0_1_n_n.contr.Idx) :
    (dot_S1024x1024_S1024x1024_S1024x1024_1_0_0_1_n_n.rhsIdx i κ 0).val = (κ ⟨0, by decide⟩).val :=
  dot_S1024x1024_S1024x1024_S1024x1024_1_0_0_1_n_n.rhsIdx_val_of_single rfl i κ
theorem rhs_tile_1 (i : S1024x1024.Idx) (κ : dot_S1024x1024_S1024x1024_S1024x1024_1_0_0_1_n_n.contr.Idx) :
    (dot_S1024x1024_S1024x1024_S1024x1024_1_0_0_1_n_n.rhsIdx i κ 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two 1024 × 1024 tiles into a zero accumulator, at `(p, q)`: the sum over the shared axis. -/
theorem matmul_tile_apply {φ₁ φ₂ : FTy} (L : FVec Ideal S1024x1024 φ₁) (R : FVec Ideal S1024x1024 φ₂) (p q : Fin 1024) :
    matmul dot_S1024x1024_S1024x1024_S1024x1024_1_0_0_1_n_n none L R (constant S1024x1024 .f32 0x00000000#32) (ix2 p q)
      = ∑ k : Fin 1024, L (ix2 p k) * R (ix2 k q) := by
  refine (Ideal.matmul_constant_zero_apply dot_S1024x1024_S1024x1024_S1024x1024_1_0_0_1_n_n none L R (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-! ## The two payloads at an index -/

/-- The reset stores zero everywhere. -/
theorem pay1_apply (y : S1024x1024.Idx) : k0_pay1 (F := Ideal) y = 0 := by
  show Ideal.ofBits .f32 0x00000000#32 = 0
  exact Ideal.ofBits_zero_f32

/-- The accumulating store at `(p, q)`: what the output tile held there, plus the tile's sum. -/
theorem pay2_apply (v3 : Vec Ideal S128x1024 .i32) (v20 : Vec Ideal S8x1024 .f32) (v26 v28 : Vec Ideal S1024x1024 .f32)
    (p q : Fin 1024) :
    k0_pay2 (F := Ideal) v3 v20 v26 v28 (ix2 p q) = v28 (ix2 p q) + tileSum v26 v3 v20 p q := by
  unfold k0_pay2
  dsimp only
  rw [addf_apply, shapeCast_self]
  refine congrArg (v28 (ix2 p q) + ·) ?_
  refine (matmul_tile_apply _ _ p q).trans ?_
  unfold tileSum
  refine Finset.sum_congr rfl fun k _ => ?_
  rw [truncf_apply, truncf_apply, ungroup_apply, mulf_apply, regroup_apply, scale_apply, subf_apply, sitofp_apply,
    unpack_apply]
  refine congrArg (v26 (ix2 p k) * ·) ?_
  show (FloatOps.sitofp (F := Ideal) .f32 (IntOp.andi (IntOp.shrsi .vector (broadcastTo _ _ _ _) (broadcastTo _ _ _ _)) 15#32) - _) * _ = _
  rw [word_apply, amount_apply, shrsi_vector_eq_host]
  rfl

end Cert.QMatmul.Tile

end
-- ==== Proof.Blocks.lean ====
/-
  From the blocks to the whole array: the kernel computes `G`.

  The grid is 8 × 8 × 4, the last axis innermost: point `t` works on block row `t / 32` of `A` and of the output, block column
  `(t / 4) mod 8` of the weights and of the output, and slab `t mod 4` of the shared axis. The four points of a run
  `4 r … 4 r + 3` share the output block `(r / 8, r mod 8)`; the first stores zero plus its tile sum, each later one adds its
  tile sum, and the last writes the block back. So entry `(i, j)` of the result is the sum over the four slabs `s` of the
  sums over the slab's 1024 rows `k` of `A (i, 1024 s + k)` times the dequantized weight `(1024 s + k, j)`: the input blocks
  are read where they lie in their arrays (a block's coordinate is its index times its size plus the place inside it),
  and `(1024 s + k) / 8 = 128 s + k / 8`, `(1024 s + k) / 128 = 8 s + k / 128`, `(1024 s + k) mod 8 = k mod 8` line the packed
  words and the scales up. Four slabs of 1024 are the whole sum over 4096.
-/
import proofs.«406609_j25400436588628_1_alg».proof.Proof.Gen.KernelIdeal.Value
import proofs.«406609_j25400436588628_1_alg».proof.Proof.Payload

noncomputable section

namespace Cert.QMatmul.Blocks

open Cert.KernelIdeal Cert.KernelIdeal.Gen Cert.KernelIdeal.Value Idealize.ShloMosaic Idealize.ShloMosaic.ValueIdx
  Idealize.ShloMosaic.TcCoe Idealize.SL.Sem Cert.QMatmul Cert.QMatmul.Tile

variable (m : (ℓ : Loc nD τ sig) → Buf (Elt Ideal) ℓ)

/-- The three argument arrays and, at a grid point, the block of each the point works on, at their literal types. -/
abbrev Aarr (c : Dev nD) : FVec Ideal S8192x4096 .f32 := m ((c : Thread nD τ).loc main_arg0)
abbrev Barr (c : Dev nD) : IVec S512x8192 32 := m ((c : Thread nD τ).loc main_arg1)
abbrev Sarr (c : Dev nD) : FVec Ideal S32x8192 .f32 := m ((c : Thread nD τ).loc main_arg2)
abbrev ablk (c : Dev nD) (t : Fin cfg0.N) : FVec Ideal S1024x1024 .f32 := iblk m c 0 t
abbrev bblk (c : Dev nD) (t : Fin cfg0.N) : IVec S128x1024 32 := iblk m c 1 t
abbrev sblk (c : Dev nD) (t : Fin cfg0.N) : FVec Ideal S8x1024 .f32 := iblk m c 2 t

/-- The printed index maps of the three input windows, decided over the grid. -/
theorem in_idx : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val % 4 ∧ win0_2.index t (1 : Fin 2) = t.val / 4 % 8 :=
  (by decide +kernel : ∀ t : Fin grid0.N, _)

/-! ## An input block at an index is an entry of its array -/

theorem ablk_apply (c : Dev nD) (t : Fin cfg0.N) (p k : Fin 1024) (r : Fin 8192) (κ : Fin 4096)
    (hr : t.val / 32 * 1024 + p.val = r.val) (hκ : t.val % 4 * 1024 + k.val = κ.val) :
    ablk m c t (ix2 p k) = Aarr m c (ix2 r κ) := by
  obtain ⟨e0, e1, -⟩ := in_idx t
  show Aarr m c (((cfg0.win 0).blk t).view.emb (ix2 p k)) = _
  refine congrArg (Aarr m c) (funext fun a => Fin.ext ?_)
  match a with
  | ⟨0, _⟩ => show win0_0.index t (0 : Fin 2) * 1024 + 1 * p.val = r.val; rw [e0]; omega
  | ⟨1, _⟩ => show win0_0.index t (1 : Fin 2) * 1024 + 1 * k.val = κ.val; rw [e1]; omega

theorem bblk_apply (c : Dev nD) (t : Fin cfg0.N) (u : Fin 128) (q : Fin 1024) (r : Fin 512) (j : Fin 8192)
    (hr : t.val % 4 * 128 + u.val = r.val) (hj : t.val / 4 % 8 * 1024 + q.val = j.val) :
    bblk m c t (ix2 u q) = Barr m c (ix2 r j) := by
  obtain ⟨-, -, e0, e1, -⟩ := in_idx t
  show Barr m c (((cfg0.win 1).blk t).view.emb (ix2 u q)) = _
  refine congrArg (Barr m c) (funext fun a => Fin.ext ?_)
  match a with
  | ⟨0, _⟩ => show win0_1.index t (0 : Fin 2) * 128 + 1 * u.val = r.val; rw [e0]; omega
  | ⟨1, _⟩ => show win0_1.index t (1 : Fin 2) * 1024 + 1 * q.val = j.val; rw [e1]; omega

theorem sblk_apply (c : Dev nD) (t : Fin cfg0.N) (g : Fin 8) (q : Fin 1024) (r : Fin 32) (j : Fin 8192)
    (hr : t.val % 4 * 8 + g.val = r.val) (hj : t.val / 4 % 8 * 1024 + q.val = j.val) :
    sblk m c t (ix2 g q) = Sarr m c (ix2 r j) := by
  obtain ⟨-, -, -, -, e0, e1⟩ := in_idx t
  show Sarr m c (((cfg0.win 2).blk t).view.emb (ix2 g q)) = _
  refine congrArg (Sarr m c) (funext fun a => Fin.ext ?_)
  match a with
  | ⟨0, _⟩ => show win0_2.index t (0 : Fin 2) * 8 + 1 * g.val = r.val; rw [e0]; omega
  | ⟨1, _⟩ => show win0_2.index t (1 : Fin 2) * 1024 + 1 * q.val = j.val; rw [e1]; omega

/-! ## A run's fold is the sum of its four points' tile sums -/

/-- What point `n` adds to the output tile at place `y`: the tile sum over the point's three input blocks. -/
def addend (c : Dev nD) (n : ℕ) (y : S1024x1024.Idx) : EReal :=
  if h : n < cfg0.N then
    tileSum (ablk m c ⟨n, h⟩) (bblk m c ⟨n, h⟩) (sblk m c ⟨n, h⟩) ⟨(y 0).val, (y 0).isLt⟩ ⟨(y 1).val, (y 1).isLt⟩
  else 0

theorem reset_apply (c : Dev nD) (n : ℕ) (h : n < cfg0.N) (y : S1024x1024.Idx) :
    reset3 (F := Ideal) m c n h y = 0 + addend m c n y := by
  obtain ⟨p, q, rfl⟩ : ∃ (p : Fin 1024) (q : Fin 1024), y = ix2 p q := ⟨y 0, y 1, eq_ix2 y⟩
  show k0_pay2 (F := Ideal) (bblk m c ⟨n, h⟩) (sblk m c ⟨n, h⟩) (ablk m c ⟨n, h⟩) (k0_pay1 (F := Ideal)) (ix2 p q) = _
  rw [pay2_apply, pay1_apply]
  unfold addend
  rw [dif_pos h]

theorem step_apply (c : Dev nD) (n : ℕ) (h : n < cfg0.N) (acc : Vec Ideal S1024x1024 .f32) (y : S1024x1024.Idx) :
    step3 (F := Ideal) m c n h acc y = acc y + addend m c n y := by
  obtain ⟨p, q, rfl⟩ : ∃ (p : Fin 1024) (q : Fin 1024), y = ix2 p q := ⟨y 0, y 1, eq_ix2 y⟩
  show k0_pay2 (F := Ideal) (bblk m c ⟨n, h⟩) (sblk m c ⟨n, h⟩) (ablk m c ⟨n, h⟩) acc (ix2 p q) = _
  rw [pay2_apply]
  unfold addend
  rw [dif_pos h]

/-- After its fourth point a run's output tile holds the sum of the four points' tile sums. -/
theorem fold_apply (c : Dev nD) (b : ℕ) (h : b + 3 < cfg0.N) (y : S1024x1024.Idx) :
    Pipeline.accAt (reset3 (F := Ideal) m c) (step3 (F := Ideal) m c) b 3 h y = ∑ s : Fin 4, addend m c (b + s.val) y := by
  rw [Pipeline.accAt_add_apply (ι := S1024x1024.Idx) (β := EReal) (reset3 (F := Ideal) m c) (step3 (F := Ideal) m c)
    (fun _ => 0) (addend m c) b 3 (fun hb y => reset_apply m c b hb y) (fun n hn acc y _ _ => step_apply m c n hn acc y)
    3 le_rfl h y, zero_add, Finset.sum_range fun s => addend m c (b + s) y]

/-! ## The array after the run -/

/-- The kernel's result array is `G` of its three arguments. -/
theorem G3_eq (c : Dev nD) : G3 (F := Ideal) m c = G (Aarr m c) (Barr m c) (Sarr m c) := by
  funext i
  show @Eq EReal (G3 (F := Ideal) m c i) (G (Aarr m c) (Barr m c) (Sarr m c) i)
  have hi0 : (i 0).val < 8192 := (i 0).isLt
  have hi1 : (i 1).val < 8192 := (i 1).isLt
  have hN : cfg0.N = 256 := N_0
  have hb : 4 * run3Of i + 3 < cfg0.N := by
    rw [hN]; show 4 * (8 * ((i 0).val / 1024 - 0) + 1 * ((i 1).val / 1024 - 0)) + 3 < 256; omega
  unfold G3
  rw [dif_pos hb, fold_apply]
  unfold G
  rw [← Cert.Hand.LibTile.sum_tiles (m := 4) (n := 1024) rfl]
  refine Finset.sum_congr rfl fun s _ => ?_
  have hs : s.val < 4 := s.isLt
  have ht : 4 * run3Of i + s.val < cfg0.N := by omega
  unfold addend
  rw [dif_pos ht]
  unfold tileSum
  refine Finset.sum_congr rfl fun k _ => ?_
  have hk : k.val < 1024 := k.isLt
  have hrun : run3Of i = 8 * ((i 0).val / 1024 - 0) + 1 * ((i 1).val / 1024 - 0) := rfl
  rw [ablk_apply m c ⟨4 * run3Of i + s.val, ht⟩ _ k ⟨(i 0).val, hi0⟩ ⟨1024 * s.val + k.val, by omega⟩
      (by show (4 * run3Of i + s.val) / 32 * 1024 + (i 0).val % 1024 = (i 0).val; omega)
      (by show (4 * run3Of i + s.val) % 4 * 1024 + k.val = 1024 * s.val + k.val; omega),
    bblk_apply m c ⟨4 * run3Of i + s.val, ht⟩ _ _ ⟨(1024 * s.val + k.val) / 8, by omega⟩ ⟨(i 1).val, hi1⟩
      (by show (4 * run3Of i + s.val) % 4 * 128 + k.val / 8 = (1024 * s.val + k.val) / 8; omega)
      (by show (4 * run3Of i + s.val) / 4 % 8 * 1024 + (i 1).val % 1024 = (i 1).val; omega),
    sblk_apply m c ⟨4 * run3Of i + s.val, ht⟩ _ _ ⟨(1024 * s.val + k.val) / 128, by omega⟩ ⟨(i 1).val, hi1⟩
      (by show (4 * run3Of i + s.val) % 4 * 8 + k.val / 128 = (1024 * s.val + k.val) / 128; omega)
      (by show (4 * run3Of i + s.val) / 4 % 8 * 1024 + (i 1).val % 1024 = (i 1).val; omega),
    show k.val % 8 = (1024 * s.val + k.val) % 8 from by omega]

end Cert.QMatmul.Blocks

end
-- ==== Proof.lean ====
/- An int4 grouped-quantized matrix product, tiled over a grid, against the plain product.

   Both programs compute `C (i, j) = ∑ k < 4096, A (i, k) · W (k, j)`, where weight row `k` is the 4-bit field `k mod 8` of
   packed word `(k / 8, j)`, read as an integer 0 … 15, minus 8, times the scale `(k / 128, j)` of the row's group. The
   reference builds the whole 4096 × 8192 weight matrix and multiplies once. The kernel cuts `C` into 8 × 8 tiles of
   1024 × 1024 and the shared axis into four slabs of 1024; for each tile it stores zero plus the first slab's product,
   adds the other three slabs' products in turn, and writes the tile back after the fourth. On the extended reals
   narrowing a float's format is the identity, and addition is commutative and associative, so four slab sums added from
   zero are the one sum over 4096: the equality needs nothing of the entries, and the precondition is not used.
   Proof/Spec.lean states the common function `G`; Proof/RefSpec.lean reads the reference at an index; Proof/Payload.lean
   reads one grid point's arithmetic at an index; Proof/Blocks.lean adds up a tile's four points and places the input
   blocks in their arrays. Each program's frame is its run with the result dropped. -/
import proofs.«406609_j25400436588628_1_alg».proof.Defs
import proofs.«406609_j25400436588628_1_alg».proof.Proof.Gen.Kernel.Frame
import proofs.«406609_j25400436588628_1_alg».proof.Proof.Gen.KernelIdeal.Value
import proofs.«406609_j25400436588628_1_alg».proof.Proof.Gen.Pre_finite_inputs
import proofs.«406609_j25400436588628_1_alg».proof.Proof.Gen.ReferenceIdeal.Run
import proofs.«406609_j25400436588628_1_alg».proof.Proof.Gen.ReferenceIdeal.Read
import proofs.«406609_j25400436588628_1_alg».proof.Proof.RefSpec
import proofs.«406609_j25400436588628_1_alg».proof.Proof.Blocks
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  -- the reference's term is its last stage, that stage is `G` of the arguments, and `G` is what the kernel's array holds
  exact ((Cert.ReferenceIdeal.Read.val_main_v19_eq _ _ _).trans (Cert.QMatmul.Ref.ref_eq _ _ _)).trans
    (Cert.QMatmul.Blocks.G3_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
